-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  IdealRules.named_const.Statement Cert.KernelIdeal.κ "fold_c_524288_11863283" .f32 0x3D3504F3#32 ((524288 / 11863283 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3_1)) (v1 : (c : Dev Cert.KernelIdeal.nD) → Buf (Elt Ideal) ((c.tc : Thread Cert.KernelIdeal.nD Cert.KernelIdeal.τ).loc Cert.KernelIdeal.main_v3_0)) (v2 : (c : Dev Cert.KernelIdeal.nD) → Buf (Elt Ideal) ((c.tc : Thread Cert.KernelIdeal.nD Cert.KernelIdeal.τ).loc Cert.KernelIdeal.main_v3_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_1) = v0 c
          ∧ r.2.mem ((c.tc : Thread Cert.KernelIdeal.nD Cert.KernelIdeal.τ).loc Cert.KernelIdeal.main_v3_0) = v1 c
          ∧ r.2.mem ((c.tc : Thread Cert.KernelIdeal.nD Cert.KernelIdeal.τ).loc Cert.KernelIdeal.main_v3_1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_v5) = v1 c
          ∧ r.2.mem ((c.tc : Thread Cert.ReferenceIdeal.nD Cert.ReferenceIdeal.τ).loc Cert.ReferenceIdeal.main_v15) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S512x512 : Shape := ⟨2, ![512, 512]⟩
abbrev S512 : Shape := ⟨1, ![512]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_arg4 : FVec F S512 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  main_v23

def fn {F : FTy → Type} [FloatOps F] (main_arg0 : FVec F S8192x512 .f32) (main_arg1 : FVec F S512x512 .f32) (main_arg2 : FVec F S512x512 .f32) (main_arg3 : FVec F S512 .f32) (main_arg4 : FVec F S512 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_v13 main_v16
-- ==== Kernel.lean ====
abbrev S8192x512 : Shape := ⟨2, ![8192, 512]⟩
abbrev S512x512 : Shape := ⟨2, ![512, 512]⟩
abbrev S512 : Shape := ⟨1, ![512]⟩
abbrev S1x512 : Shape := ⟨2, ![1, 512]⟩
abbrev S1024x512 : Shape := ⟨2, ![1024, 512]⟩

abbrev nBuf : Space → Nat
  | .hbm => 11
  | .vmem => 14
  | .smem => 0
  | _ => 0

abbrev bufTy : (tb : Table) → Fin (tcTables nBuf tb) → BufTy
  | .hbm, ⟨0, _⟩ => ⟨S8192x512, .f32⟩
  | .hbm, ⟨1, _⟩ => ⟨S512x512, .f32⟩
  | .hbm, ⟨2, _⟩ => ⟨S512x512, .f32⟩
  | .hbm, ⟨3, _⟩ => ⟨S512, .f32⟩
  | .hbm, ⟨4, _⟩ => ⟨S512, .f32⟩
  | .hbm, ⟨5, _⟩ => ⟨S512x512, .bf16⟩
  | .hbm, ⟨6, _⟩ => ⟨S512x512, .bf16⟩
  | .hbm, ⟨7, _⟩ => ⟨S1x512, .f32⟩
  | .hbm, ⟨8, _⟩ => ⟨S1x512, .f32⟩
  | .hbm, ⟨9, _⟩ => ⟨S8192x512, .f32⟩
  | .hbm, ⟨10, _⟩ => ⟨S8192x512, .f32⟩
  | .local _ .vmem, ⟨0, _⟩ => ⟨S512x512, .f32⟩
  | .local _ .vmem, ⟨1, _⟩ => ⟨S512x512, .f32⟩
  | .local _ .vmem, ⟨2, _⟩ => ⟨S512x512, .bf16⟩
  | .local _ .vmem, ⟨3, _⟩ => ⟨S512x512, .bf16⟩
  | .local _ .vmem, ⟨4, _⟩ => ⟨S1024x512, .f32⟩
  | .local _ .vmem, ⟨5, _⟩ => ⟨S1024x512, .f32⟩
  | .local _ .vmem, ⟨6, _⟩ => ⟨S512x512, .bf16⟩
  | .local _ .vmem, ⟨7, _⟩ => ⟨S512x512, .bf16⟩
  | .local _ .vmem, ⟨8, _⟩ => ⟨S1x512, .f32⟩
  | .local _ .vmem, ⟨9, _⟩ => ⟨S1x512, .f32⟩
  | .local _ .vmem, ⟨10, _⟩ => ⟨S1024x512, .f32⟩
  | .local _ .vmem, ⟨11, _⟩ => ⟨S1024x512, .f32⟩
  | .local _ .vmem, ⟨12, _⟩ => ⟨S1024x512, .f32⟩
  | .local _ .vmem, ⟨13, _⟩ => ⟨S1024x512, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg3_0 : Ref sig .tc := ⟨.vmem, 8, rfl⟩
abbrev cc1_stg4_0 : Ref sig .tc := ⟨.vmem, 9, rfl⟩
abbrev cc1_stg5_0 : Ref sig .tc := ⟨.vmem, 10, rfl⟩
abbrev cc1_stg5_1 : Ref sig .tc := ⟨.vmem, 11, rfl⟩
abbrev cc1_stg6_0 : Ref sig .tc := ⟨.vmem, 12, rfl⟩
abbrev cc1_stg6_1 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem3_0 : DmaSem sig := 8
abbrev cc1_sem4_0 : DmaSem sig := 9
abbrev cc1_sem5_0 : DmaSem sig := 10
abbrev cc1_sem5_1 : DmaSem sig := 11
abbrev cc1_sem6_0 : DmaSem sig := 12
abbrev cc1_sem6_1 : DmaSem sig := 13

abbrev nD : Nat := 1
abbrev τ : Topo := Topo.v7x

variable {F : FTy → Type} [FloatOps F]

abbrev grid0 : Pipeline.Grid := .none

abbrev stage0_0 : Fin 1 → Memref sig .tc .vmem S512x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S512x512 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S512x512 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S1024x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1024x512 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  inb_S512x512_S512x512_0_0 : ∀ a, (![0, 0] : Fin 2 → Nat) a + S512x512.size a ≤ S512x512.size a
  h_S512x512 : 0 < S512x512.numel
  bitsLt_bf16_f32 : FTy.bits .bf16 < FTy.bits .f32
  packedbf16_S512x512_S512x512_0_0 : (Rect.unit (s := S512x512) ![0, 0] S512x512.size inb_S512x512_S512x512_0_0).PackedRows (EltTy.packing .bf16)
  shapeCasts_S512_S1x512 : S512.ShapeCasts S1x512
  inb_S1024x512_S1024x512_0_0 : ∀ a, (![0, 0] : Fin 2 → Nat) a + S1024x512.size a ≤ S1024x512.size a
  h_S1024x512 : 0 < S1024x512.numel
  shapeCasts_S512x512_S512x512 : S512x512.ShapeCasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  dot_S1024x512_S512x512_S1024x512_1_1_0_0_n_n_wf : DotDims.WF S1024x512 S512x512 S1024x512 [1] [1] [0] [0] [] []
  hstage0_0 : ∀ j, (stage0_0 j).IsWhole
  hstage0_1 : ∀ j, (stage0_1 j).IsWhole
  hstage0_2 : ∀ j, (stage0_2 j).IsWhole
  hstage0_3 : ∀ j, (stage0_3 j).IsWhole
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x512.size a ≤ S8192x512.size a
  hwx1_0 : ∀ i : grid1.Coords, EltTy.bits .f32 = 32 ∨ (Rect.block (s := S8192x512) S1024x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512x512.size a ≤ S512x512.size a
  hwx1_1 : ∀ i : grid1.Coords, EltTy.bits .bf16 = 32 ∨ (Rect.block (s := S512x512) S512x512.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S512x512.size a ≤ S512x512.size a
  hwx1_2 : ∀ i : grid1.Coords, EltTy.bits .bf16 = 32 ∨ (Rect.block (s := S512x512) S512x512.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x512.size a ≤ S1x512.size a
  hwx1_3 : ∀ i : grid1.Coords, EltTy.bits .f32 = 32 ∨ (Rect.block (s := S1x512) S1x512.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x512.size a ≤ S1x512.size a
  hwx1_4 : ∀ i : grid1.Coords, EltTy.bits .f32 = 32 ∨ (Rect.block (s := S1x512) S1x512.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1024x512.size a ≤ S8192x512.size a
  hwx1_5 : ∀ i : grid1.Coords, EltTy.bits .f32 = 32 ∨ (Rect.block (s := S8192x512) S1024x512.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1024x512.size a ≤ S8192x512.size a
  hwx1_6 : ∀ i : grid1.Coords, EltTy.bits .f32 = 32 ∨ (Rect.block (s := S8192x512) S1024x512.size (cc1_transform_6 i) (hinb1_6 i)).WholeWords (EltTy.packing .f32)

variable [Facts₀]

def dot_S1024x512_S512x512_S1024x512_1_1_0_0_n_n : DotDims S1024x512 S512x512 S1024x512 where
  lhsContracting := [1]
  rhsContracting := [1]
  lhsNonContracting := [0]
  rhsNonContracting := [0]
  lhsBatch := []
  rhsBatch := []
  wf := dot_S1024x512_S512x512_S1024x512_1_1_0_0_n_n_wf

abbrev win0_0 : Pipeline.Window sig grid0 :=
  Pipeline.Window.whole (Memref.whole main_arg1) false false (stage0_0 0) (sem0_0 0) (Memref.isWhole_whole _) (hstage0_0 0)

abbrev win0_1 : Pipeline.Window sig grid0 :=
  Pipeline.Window.whole (Memref.whole main_arg2) false false (stage0_1 0) (sem0_1 0) (Memref.isWhole_whole _) (hstage0_1 0)

abbrev win0_2 : Pipeline.Window sig grid0 :=
  Pipeline.Window.whole (Memref.whole main_v0_0) true false (stage0_2 0) (sem0_2 0) (Memref.isWhole_whole _) (hstage0_2 0)

abbrev win0_3 : Pipeline.Window sig grid0 :=
  Pipeline.Window.whole (Memref.whole main_v0_1) true false (stage0_3 0) (sem0_3 0) (Memref.isWhole_whole _) (hstage0_3 0)

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S1024x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0_0) S512x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v0_1) S512x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v1) S1x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v2) S1x512.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v3_0) S1024x512.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v3_1) S1024x512.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S8192x512 : Shape := ⟨2, ![8192, 512]⟩
abbrev S512x512 : Shape := ⟨2, ![512, 512]⟩
abbrev S512 : Shape := ⟨1, ![512]⟩
abbrev S_ : Shape := ⟨0, ![]⟩
abbrev S1x512 : Shape := ⟨2, ![1, 512]⟩

abbrev nBuf : Space → Nat
  | .hbm => 37
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S512x512, .f32⟩
  | .hbm, ⟨2, _⟩ => ⟨S512x512, .f32⟩
  | .hbm, ⟨3, _⟩ => ⟨S512, .f32⟩
  | .hbm, ⟨4, _⟩ => ⟨S512, .f32⟩
  | .hbm, ⟨5, _⟩ => ⟨S_, .f32⟩
  | .hbm, ⟨6, _⟩ => ⟨S512x512, .f32⟩
  | .hbm, ⟨7, _⟩ => ⟨S512x512, .f32⟩
  | .hbm, ⟨8, _⟩ => ⟨S512x512, .f32⟩
  | .hbm, ⟨9, _⟩ => ⟨S512x512, .f32⟩
  | .hbm, ⟨10, _⟩ => ⟨S512x512, .i1⟩
  | .hbm, ⟨11, _⟩ => ⟨S512x512, .f32⟩
  | .hbm, ⟨12, _⟩ => ⟨S512x512, .f32⟩
  | .hbm, ⟨13, _⟩ => ⟨S512x512, .f32⟩
  | .hbm, ⟨14, _⟩ => ⟨S512x512, .f32⟩
  | .hbm, ⟨15, _⟩ => ⟨S512x512, .f32⟩
  | .hbm, ⟨16, _⟩ => ⟨S512x512, .f32⟩
  | .hbm, ⟨17, _⟩ => ⟨S512x512, .f32⟩
  | .hbm, ⟨18, _⟩ => ⟨S512x512, .f32⟩
  | .hbm, ⟨19, _⟩ => ⟨S512x512, .f32⟩
  | .hbm, ⟨20, _⟩ => ⟨S512x512, .f32⟩
  | .hbm, ⟨21, _⟩ => ⟨S8192x512, .f32⟩
  | .hbm, ⟨22, _⟩ => ⟨S_, .f32⟩
  | .hbm, ⟨23, _⟩ => ⟨S8192x512, .f32⟩
  | .hbm, ⟨24, _⟩ => ⟨S8192x512, .f32⟩
  | .hbm, ⟨25, _⟩ => ⟨S1x512, .f32⟩
  | .hbm, ⟨26, _⟩ => ⟨S8192x512, .f32⟩
  | .hbm, ⟨27, _⟩ => ⟨S8192x512, .f32⟩
  | .hbm, ⟨28, _⟩ => ⟨S_, .f32⟩
  | .hbm, ⟨29, _⟩ => ⟨S8192x512, .f32⟩
  | .hbm, ⟨30, _⟩ => ⟨S8192x512, .f32⟩
  | .hbm, ⟨31, _⟩ => ⟨S512x512, .f32⟩
  | .hbm, ⟨32, _⟩ => ⟨S8192x512, .f32⟩
  | .hbm, ⟨33, _⟩ => ⟨S8192x512, .f32⟩
  | .hbm, ⟨34, _⟩ => ⟨S1x512, .f32⟩
  | .hbm, ⟨35, _⟩ => ⟨S8192x512, .f32⟩
  | .hbm, ⟨36, _⟩ => ⟨S8192x512, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_cst : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_cst : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_call1_cst : Ref sig .tc := ⟨.hbm, 28, rfl⟩
abbrev main_call1_v0 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩

abbrev nD : Nat := 1
abbrev τ : Topo := Topo.v7x

variable {F : FTy → Type} [FloatOps F]

class Facts₀ : Prop where
  bcast_S_S512x512 : S_.BroadcastsInDim S512x512 (![] : Fin 0 → Fin S512x512.rank)
  transposes_S512x512_S512x512_1_0 : S512x512.Transposes [1, 0] S512x512
  bcast_S_S8192x512 : S_.BroadcastsInDim S8192x512 (![] : Fin 0 → Fin S8192x512.rank)
  bcast_S512_S1x512_1 : S512.BroadcastsInDim S1x512 (![1] : Fin 1 → Fin S1x512.rank)
  bcast_S1x512_S8192x512_0_1 : S1x512.BroadcastsInDim S8192x512 (![0, 1] : Fin 2 → Fin S8192x512.rank)
  dot_S8192x512_S512x512_S8192x512_1_0_0_1_n_n_wf : DotDims.WF S8192x512 S512x512 S8192x512 [1] [0] [0] [1] [] []

variable [Facts₀]

def dot_S8192x512_S512x512_S8192x512_1_0_0_1_n_n : DotDims S8192x512 S512x512 S8192x512 where
  lhsContracting := [1]
  rhsContracting := [0]
  lhsNonContracting := [0]
  rhsNonContracting := [1]
  lhsBatch := []
  rhsBatch := []
  wf := dot_S8192x512_S512x512_S8192x512_1_0_0_1_n_n_wf

class Facts : Prop extends Facts₀ where

variable [Facts]
-- ==== Proof.Spec.lean ====
/- The mathematics both programs compute, stated once over the extended reals.

   Inputs: x (8192 × 512), mu and sigma (512 × 512 each, rows indexed by the output feature), gate and bias (512).
     keys[o, k]   = mu[o, k] · softplus(sigma[o, k]),  softplus s = max s 0 + log(1 + exp(−|s|))
     scores[r, o] = (Σ_k x[r, k] · keys[o, k]) · (1/D)
     masked[r, o] = (Σ_k x[r, k] · mu[o, k]) · max(scores[r, o] − gate[o], 0) + bias[o]
   D is the divisor the reference carries (the single-precision value nearest √512, the rational 11863283/524288);
   the kernel multiplies by the constant named as its exact reciprocal 524288/11863283. -/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx
open scoped BigOperators

/-- The activations' shape, the weights' shape, and the per-feature vectors' shape. -/
abbrev Sx : Shape := ⟨2, ![8192, 512]⟩
abbrev Sw : Shape := ⟨2, ![512, 512]⟩
abbrev Sv : Shape := ⟨1, ![512]⟩

/-- The exact reciprocal of the reference's divisor D = 11863283/524288. -/
def invD : EReal := ((524288 / 11863283 : ℝ) : EReal)

/-- softplus in the stable form both programs use: max s 0 + log(1 + exp(−|s|)), with |s| = max s (−s). -/
def softplus (s : EReal) : EReal := max s 0 + Ideal.log1p (Ideal.exp (-(max s (-s))))

/-- keys[o, k] = mu[o, k] · softplus(sigma[o, k]). -/
def keys (mu sig : Sw.Idx → EReal) : Sw.Idx → EReal := fun i => mu i * softplus (sig i)

/-- One score from a row-block of x of any height: (Σ_k x[r, k] · ky[o, k]) · (1/D). -/
def scoreOf {R : Nat} (x : (⟨2, ![R, 512]⟩ : Shape).Idx → EReal) (ky : Sw.Idx → EReal) (r : Fin R) (o : Fin 512) : EReal :=
  (∑ k : Fin 512, x (ix2 r k) * ky (ix2 o k)) * invD

/-- One gated output: (Σ_k x[r, k] · mu[o, k]) · max(score − gate[o], 0) + bias[o], the gate and bias given as values. -/
def gatedOf {R : Nat} (x : (⟨2, ![R, 512]⟩ : Shape).Idx → EReal) (ky mu : Sw.Idx → EReal) (g b : EReal) (r : Fin R) (o : Fin 512) : EReal :=
  (∑ k : Fin 512, x (ix2 r k) * mu (ix2 o k)) * max (scoreOf x ky r o - g) 0 + b

/-- The scores array. -/
def scores (x : Sx.Idx → EReal) (mu sig : Sw.Idx → EReal) : Sx.Idx → EReal :=
  fun i => scoreOf x (keys mu sig) (i 0) (i 1)

/-- The gated, biased output array. -/
def masked (x : Sx.Idx → EReal) (mu sig : Sw.Idx → EReal) (gate bias : Sv.Idx → EReal) : Sx.Idx → EReal :=
  fun i => gatedOf x (keys mu sig) mu (gate (ix1 (i 1))) (bias (ix1 (i 1))) (i 0) (i 1)

/-- Subtracting zero and adding zero change nothing, and zero minus a value is its negation, on the extended reals. -/
theorem sub_zero' (a : EReal) : a - 0 = a := by rw [sub_eq_add_neg, neg_zero, add_zero]
theorem zero_sub' (a : EReal) : 0 - a = -a := by rw [sub_eq_add_neg, zero_add]

/-- The softplus as printed: the guard "s − 0 differs from itself" never holds, so the stable branch is taken;
    `neg` stands for the negation as either program spells it (0 − a, or −a). -/
theorem softplus_eq (s : EReal) :
    (if (s - 0) ≠ (s - 0) then s + 0 else max s 0 + Ideal.log1p (Ideal.exp (0 - max (s - 0) (-(s - 0))))) = softplus s := by
  rw [if_neg (fun h => h rfl), sub_zero', zero_sub']; rfl

end Cert.Spec

end
-- ==== Proof.LibDotPlain.lean ====
/- A matrix product read at one index, for dimension numbers with no batch axis and one contracted axis.

   Two arrangements: rows times columns (the left operand's second axis against the right operand's first), and
   the transposed-left product (both operands' first axes contracted: the left operand's columns index the result's
   rows). In both the contraction index is one coordinate, and the sum over it is a sum over that coordinate. The
   kernel's product into a zero accumulator and the host's product are that same sum. -/
import Idealize.ShloMosaic.PureOps.Ideal
import Idealize.ShloMosaic.PureOps.Ideal.Laws
import Idealize.ShloMosaic.Lib.ValueIdx

noncomputable section

namespace Cert.DotPlain

open Idealize.ShloMosaic Idealize.ShloMosaic.ValueIdx
open scoped BigOperators

/-! ## One contracted axis, no batch axis: the contraction shape and the operand coordinates -/

/-- A list that is a singleton has its one element at position 0. -/
theorem getElem_zero_of_eq_singleton {α : Type} {l : List α} {c : α} (h : l = [c]) (hp : 0 < l.length) : l[0] = c := by
  subst h; rfl

/-- With one contracted axis the contraction shape has one axis. -/
theorem contr_rank_one {sl sr so : Shape} (d : DotDims sl sr so) {c : Fin sl.rank} (hlc : d.lhsContracting = [c]) :
    d.contr.rank = 1 := by
  rw [d.rank_contr, hlc]; rfl

/-- That one axis has the extent of the left operand's contracted axis. -/
theorem contr_size_zero {sl sr so : Shape} (d : DotDims sl sr so) {c : Fin sl.rank} (hlc : d.lhsContracting = [c]) :
    d.contr.size ⟨0, by rw [contr_rank_one d hlc]; exact Nat.one_pos⟩ = sl.size c := by
  have hp : 0 < d.lhsContracting.length := by rw [hlc]; exact Nat.one_pos
  exact (d.size_contr 0 hp).trans (congrArg sl.size (getElem_zero_of_eq_singleton hlc hp))

/-- Moving along one index changes nothing but the position read. -/
private theorem val_congr {s : Shape} (j : s.Idx) (p q : Nat) (hp : p < s.rank) (hq : q < s.rank) (h : p = q) :
    (j ⟨p, hp⟩).val = (j ⟨q, hq⟩).val := by
  subst h; rfl

/-- No batch axis and one free axis on the left: on that axis the left operand reads the result's first coordinate. -/
theorem lhsIdx_val_nonContr {sl sr so : Shape} (d : DotDims sl sr so) (hlb : d.lhsBatch = [])
    {a : Fin sl.rank} (hln : d.lhsNonContracting = [a]) (j : so.Idx) (k : d.contr.Idx) (h0 : 0 < so.rank) :
    (d.lhsIdx j k a).val = (j ⟨0, h0⟩).val := by
  have hb : a ∉ d.lhsBatch := by rw [hlb]; exact List.not_mem_nil
  have hn : a ∈ d.lhsNonContracting := by rw [hln]; exact List.mem_singleton.mpr rfl
  unfold DotDims.lhsIdx
  rw [dif_neg hb, dif_pos hn]
  simp only [Fin.val_cast]
  exact val_congr j _ _ _ _ (by simp [hlb, hln])

/-- No batch axis and one free axis on each side: on its free axis the right operand reads the result's second
    coordinate (the result lists the left operand's free axis first). -/
theorem rhsIdx_val_nonContr {sl sr so : Shape} (d : DotDims sl sr so) (hlb : d.lhsBatch = []) (hrb : d.rhsBatch = [])
    {al : Fin sl.rank} (hln : d.lhsNonContracting = [al]) {a : Fin sr.rank} (hrn : d.rhsNonContracting = [a])
    (j : so.Idx) (k : d.contr.Idx) (h1 : 1 < so.rank) :
    (d.rhsIdx j k a).val = (j ⟨1, h1⟩).val := by
  have hb : a ∉ d.rhsBatch := by rw [hrb]; exact List.not_mem_nil
  have hn : a ∈ d.rhsNonContracting := by rw [hrn]; exact List.mem_singleton.mpr rfl
  unfold DotDims.rhsIdx
  rw [dif_neg hb, dif_pos hn]
  simp only [Fin.val_cast]
  exact val_congr j _ _ _ _ (by simp [hlb, hln, hrn])

/-! ## The contraction sum as a sum over the contracted coordinate -/

/-- Rows times columns: the contraction sum at (a, b) is the sum over k of l (a, k) · r (k, b). -/
theorem sum_rows_cols {M K N : Nat} (d : DotDims ⟨2, ![M, K]⟩ ⟨2, ![K, N]⟩ ⟨2, ![M, N]⟩)
    (hlb : d.lhsBatch = []) (hrb : d.rhsBatch = []) (hlc : d.lhsContracting = [1]) (hrc : d.rhsContracting = [0])
    (hln : d.lhsNonContracting = [0]) (hrn : d.rhsNonContracting = [1])
    (l : (⟨2, ![M, K]⟩ : Shape).Idx → EReal) (r : (⟨2, ![K, N]⟩ : Shape).Idx → EReal) (a : Fin M) (b : Fin N) :
    (∑ k : d.contr.Idx, l (d.lhsIdx (ix2 a b) k) * r (d.rhsIdx (ix2 a b) k)) = ∑ k : Fin K, l (ix2 a k) * r (ix2 k b) := by
  have hr : d.contr.rank = 1 := contr_rank_one d hlc
  have hs : d.contr.size ⟨0, by omega⟩ = K := contr_size_zero d hlc
  -- re-index the sum by the one contraction coordinate, then identify each operand's index axis by axis
  rw [← Equiv.sum_comp (contrEquiv1 d K hr hs).symm]
  refine Finset.sum_congr rfl fun k _ => ?_
  have hl : d.lhsIdx (ix2 a b) ((contrEquiv1 d K hr hs).symm k) = ix2 a k := by
    funext ax
    match ax with
    | ⟨0, _⟩ => exact Fin.ext (lhsIdx_val_nonContr d hlb hln _ _ Nat.zero_lt_two)
    | ⟨1, _⟩ => exact Fin.ext ((d.lhsIdx_val_of_single hlc _ _).trans (contrEquiv1_symm_val d K hr hs k))
  have hrr : d.rhsIdx (ix2 a b) ((contrEquiv1 d K hr hs).symm k) = ix2 k b := by
    funext ax
    match ax with
    | ⟨0, _⟩ => exact Fin.ext ((d.rhsIdx_val_of_single hrc _ _).trans (contrEquiv1_symm_val d K hr hs k))
    | ⟨1, _⟩ => exact Fin.ext (rhsIdx_val_nonContr d hlb hrb hln hrn _ _ Nat.one_lt_two)
  rw [hl, hrr]

/-- Transposed-left product: the contraction sum at (a, b) is the sum over k of l (k, a) · r (k, b). -/
theorem sum_cols_cols {M K N : Nat} (d : DotDims ⟨2, ![K, M]⟩ ⟨2, ![K, N]⟩ ⟨2, ![M, N]⟩)
    (hlb : d.lhsBatch = []) (hrb : d.rhsBatch = []) (hlc : d.lhsContracting = [0]) (hrc : d.rhsContracting = [0])
    (hln : d.lhsNonContracting = [1]) (hrn : d.rhsNonContracting = [1])
    (l : (⟨2, ![K, M]⟩ : Shape).Idx → EReal) (r : (⟨2, ![K, N]⟩ : Shape).Idx → EReal) (a : Fin M) (b : Fin N) :
    (∑ k : d.contr.Idx, l (d.lhsIdx (ix2 a b) k) * r (d.rhsIdx (ix2 a b) k)) = ∑ k : Fin K, l (ix2 k a) * r (ix2 k b) := by
  have hr : d.contr.rank = 1 := contr_rank_one d hlc
  have hs : d.contr.size ⟨0, by omega⟩ = K := contr_size_zero d hlc
  rw [← Equiv.sum_comp (contrEquiv1 d K hr hs).symm]
  refine Finset.sum_congr rfl fun k _ => ?_
  -- the left operand's first axis is the contracted one, its second axis carries the result's row
  have hl : d.lhsIdx (ix2 a b) ((contrEquiv1 d K hr hs).symm k) = ix2 k a := by
    funext ax
    match ax with
    | ⟨0, _⟩ => exact Fin.ext ((d.lhsIdx_val_of_single hlc _ _).trans (contrEquiv1_symm_val d K hr hs k))
    | ⟨1, _⟩ => exact Fin.ext (lhsIdx_val_nonContr d hlb hln _ _ Nat.zero_lt_two)
  have hrr : d.rhsIdx (ix2 a b) ((contrEquiv1 d K hr hs).symm k) = ix2 k b := by
    funext ax
    match ax with
    | ⟨0, _⟩ => exact Fin.ext ((d.rhsIdx_val_of_single hrc _ _).trans (contrEquiv1_symm_val d K hr hs k))
    | ⟨1, _⟩ => exact Fin.ext (rhsIdx_val_nonContr d hlb hrb hln hrn _ _ Nat.one_lt_two)
  rw [hl, hrr]

/-! ## The two products at an index -/

/-- The host's product, rows times columns, at an index. -/
theorem dotGeneral_rows_cols {M K N : Nat} {φ₁ φ₂ : FTy} (d : DotDims ⟨2, ![M, K]⟩ ⟨2, ![K, N]⟩ ⟨2, ![M, N]⟩)
    (hlb : d.lhsBatch = []) (hrb : d.rhsBatch = []) (hlc : d.lhsContracting = [1]) (hrc : d.rhsContracting = [0])
    (hln : d.lhsNonContracting = [0]) (hrn : d.rhsNonContracting = [1])
    (prec : Option ContractPrecision) (sched : HostSchedule)
    (l : FVec Ideal ⟨2, ![M, K]⟩ φ₁) (r : FVec Ideal ⟨2, ![K, N]⟩ φ₂) (a : Fin M) (b : Fin N) :
    FloatOps.dotGeneral d prec sched l r (ix2 a b) = ∑ k : Fin K, l (ix2 a k) * r (ix2 k b) :=
  (Ideal.dotGeneral_apply d prec sched l r (ix2 a b)).trans (sum_rows_cols d hlb hrb hlc hrc hln hrn l r a b)

/-- The kernel's product into the zero accumulator, rows times columns, at an index. -/
theorem matmul_zero_rows_cols {M K N : Nat} {φ₁ φ₂ : FTy} (d : DotDims ⟨2, ![M, K]⟩ ⟨2, ![K, N]⟩ ⟨2, ![M, N]⟩)
    (hlb : d.lhsBatch = []) (hrb : d.rhsBatch = []) (hlc : d.lhsContracting = [1]) (hrc : d.rhsContracting = [0])
    (hln : d.lhsNonContracting = [0]) (hrn : d.rhsNonContracting = [1])
    (prec : Option ContractPrecision)
    (l : FVec Ideal ⟨2, ![M, K]⟩ φ₁) (r : FVec Ideal ⟨2, ![K, N]⟩ φ₂) (a : Fin M) (b : Fin N) :
    FloatOps.matmul d prec l r (constant ⟨2, ![M, N]⟩ .f32 0x00000000#32) (ix2 a b) = ∑ k : Fin K, l (ix2 a k) * r (ix2 k b) :=
  (Ideal.matmul_constant_zero_apply d prec l r (ix2 a b)).trans (sum_rows_cols d hlb hrb hlc hrc hln hrn l r a b)

/-- The kernel's transposed-left product into the zero accumulator, at an index. -/
theorem matmul_zero_cols_cols {M K N : Nat} {φ₁ φ₂ : FTy} (d : DotDims ⟨2, ![K, M]⟩ ⟨2, ![K, N]⟩ ⟨2, ![M, N]⟩)
    (hlb : d.lhsBatch = []) (hrb : d.rhsBatch = []) (hlc : d.lhsContracting = [0]) (hrc : d.rhsContracting = [0])
    (hln : d.lhsNonContracting = [1]) (hrn : d.rhsNonContracting = [1])
    (prec : Option ContractPrecision)
    (l : FVec Ideal ⟨2, ![K, M]⟩ φ₁) (r : FVec Ideal ⟨2, ![K, N]⟩ φ₂) (a : Fin M) (b : Fin N) :
    FloatOps.matmul d prec l r (constant ⟨2, ![M, N]⟩ .f32 0x00000000#32) (ix2 a b) = ∑ k : Fin K, l (ix2 k a) * r (ix2 k b) :=
  (Ideal.matmul_constant_zero_apply d prec l r (ix2 a b)).trans (sum_cols_cols d hlb hrb hlc hrc hln hrn l r a b)

end Cert.DotPlain

end
-- ==== Proof.Payload.lean ====
/- The kernel bodies' arithmetic read at one index, at the ideal instance.

   The first body stores keys = mu · softplus(sigma) and a copy of mu (the narrowing to a 16-bit format is the identity
   on extended reals). The second body stores, for a block of 1024 rows of x, the scores
   (Σ_k x[r, k] · keys[o, k]) · (1/D) and the gated output (Σ_k x[r, k] · mu[o, k]) · max(score − gate[o], 0) + bias[o]. -/
import proofs.«128358_g1073741824313_week1_w2_1031_7_alg».proof.Proof.Gen.KernelIdeal.Skeleton
import proofs.«128358_g1073741824313_week1_w2_1031_7_alg».proof.Proof.Spec
import proofs.«128358_g1073741824313_week1_w2_1031_7_alg».proof.Proof.LibDotPlain
import Idealize.ShloMosaic.Lib.Pipeline.Value
import Idealize.ShloMosaic.Lib.ValueLayout
import Idealize.ShloMosaic.PureOps.IdealRules

noncomputable section

namespace Cert.KernelIdeal.Payload

open Idealize.ShloMosaic Idealize.ShloMosaic.ValueIdx Cert.KernelIdeal Cert.KernelIdeal.Gen
open scoped BigOperators

/-! ## Rows times rows: both operands' second axes contracted -/

/-- The contraction sum at (a, b) is the sum over k of l (a, k) · r (b, k). -/
private theorem sum_rows_rows {M K N : Nat} (d : DotDims ⟨2, ![M, K]⟩ ⟨2, ![N, K]⟩ ⟨2, ![M, N]⟩)
    (hlb : d.lhsBatch = []) (hrb : d.rhsBatch = []) (hlc : d.lhsContracting = [1]) (hrc : d.rhsContracting = [1])
    (hln : d.lhsNonContracting = [0]) (hrn : d.rhsNonContracting = [0])
    (l : (⟨2, ![M, K]⟩ : Shape).Idx → EReal) (r : (⟨2, ![N, K]⟩ : Shape).Idx → EReal) (a : Fin M) (b : Fin N) :
    (∑ k : d.contr.Idx, l (d.lhsIdx (ix2 a b) k) * r (d.rhsIdx (ix2 a b) k)) = ∑ k : Fin K, l (ix2 a k) * r (ix2 b k) := by
  have hr : d.contr.rank = 1 := Cert.DotPlain.contr_rank_one d hlc
  have hs : d.contr.size ⟨0, by omega⟩ = K := Cert.DotPlain.contr_size_zero d hlc
  -- re-index the sum by the one contraction coordinate, then identify each operand's index axis by axis
  rw [← Equiv.sum_comp (contrEquiv1 d K hr hs).symm]
  refine Finset.sum_congr rfl fun k _ => ?_
  have hl : d.lhsIdx (ix2 a b) ((contrEquiv1 d K hr hs).symm k) = ix2 a k := by
    funext ax
    match ax with
    | ⟨0, _⟩ => exact Fin.ext (Cert.DotPlain.lhsIdx_val_nonContr d hlb hln _ _ Nat.zero_lt_two)
    | ⟨1, _⟩ => exact Fin.ext ((d.lhsIdx_val_of_single hlc _ _).trans (contrEquiv1_symm_val d K hr hs k))
  have hrr : d.rhsIdx (ix2 a b) ((contrEquiv1 d K hr hs).symm k) = ix2 b k := by
    funext ax
    match ax with
    | ⟨0, _⟩ => exact Fin.ext (Cert.DotPlain.rhsIdx_val_nonContr d hlb hrb hln hrn _ _ Nat.one_lt_two)
    | ⟨1, _⟩ => exact Fin.ext ((d.rhsIdx_val_of_single hrc _ _).trans (contrEquiv1_symm_val d K hr hs k))
  rw [hl, hrr]

/-- The product into the zero accumulator, rows times rows, at an index. -/
private theorem matmul_zero_rows_rows {M K N : Nat} {φ₁ φ₂ : FTy} (d : DotDims ⟨2, ![M, K]⟩ ⟨2, ![N, K]⟩ ⟨2, ![M, N]⟩)
    (hlb : d.lhsBatch = []) (hrb : d.rhsBatch = []) (hlc : d.lhsContracting = [1]) (hrc : d.rhsContracting = [1])
    (hln : d.lhsNonContracting = [0]) (hrn : d.rhsNonContracting = [0])
    (prec : Option ContractPrecision)
    (l : FVec Ideal ⟨2, ![M, K]⟩ φ₁) (r : FVec Ideal ⟨2, ![N, K]⟩ φ₂) (a : Fin M) (b : Fin N) :
    FloatOps.matmul d prec l r (constant ⟨2, ![M, N]⟩ .f32 0x00000000#32) (ix2 a b) = ∑ k : Fin K, l (ix2 a k) * r (ix2 b k) :=
  (Ideal.matmul_constant_zero_apply d prec l r (ix2 a b)).trans (sum_rows_rows d hlb hrb hlc hrc hln hrn l r a b)

/-- The kernel's product of the block of x with a 512 × 512 operand, read at (r, o). -/
private theorem prod_at (x : Vec Ideal S1024x512 .f32) (w : Vec Ideal S512x512 .bf16) (r : Fin 1024) (o : Fin 512) :
    matmul dot_S1024x512_S512x512_S1024x512_1_1_0_0_n_n none (k1_pay1 (F := Ideal) x)
        (shapeCast S512x512 w shapeCasts_S512x512_S512x512 : FVec Ideal S512x512 .bf16)
        (constant (F := Ideal) S1024x512 .f32 0x00000000#32) (ix2 r o)
      = ∑ k : Fin 512, x (ix2 r k) * w (ix2 o k) := by
  rw [shapeCast_self]
  exact matmul_zero_rows_rows dot_S1024x512_S512x512_S1024x512_1_1_0_0_n_n rfl rfl rfl rfl rfl rfl none _ w r o

/-- The named constant is the exact reciprocal of the divisor. -/
private theorem inv_named :
    Named.named (F := Ideal) κ "fold_c_524288_11863283" (φ := .f32) 0x3D3504F3#32 = Spec.invD :=
  IdealRules.named_const.ideal_named_scalar _ _ _ _ rfl

/-- The first body's first store: keys = mu · softplus(sigma), elementwise. -/
theorem keys_pay (mu sig : Vec Ideal S512x512 .f32) : k0_pay1 (F := Ideal) mu sig = Spec.keys mu sig := by
  funext i
  unfold k0_pay1
  show mu i * Scalar.select (Ideal.cmp .one (sig i - Ideal.ofBits .f32 0x00000000#32) (sig i - Ideal.ofBits .f32 0x00000000#32))
      (sig i + Ideal.ofBits .f32 0x00000000#32)
      (max (sig i) (Ideal.ofBits .f32 0x00000000#32) +
        Ideal.log1p (Ideal.exp (Ideal.ofBits .f32 0x00000000#32 - max (sig i - Ideal.ofBits .f32 0x00000000#32) (-(sig i - Ideal.ofBits .f32 0x00000000#32))))) = _
  have hc : ∀ d : EReal, Ideal.cmp .one d d = 0#1 := by
    intro d
    simp [Ideal.cmp]
  rw [Ideal.ofBits_zero_f32, hc, select_zero, Spec.sub_zero', Spec.zero_sub']
  rfl

/-- The first body's second store: mu itself. -/
theorem mu_pay (mu : Vec Ideal S512x512 .f32) : k0_pay2 (F := Ideal) mu = mu := by
  funext i
  rfl

/-- The second body's first store at row r of the block and feature o: the score. -/
theorem score_pay (x : Vec Ideal S1024x512 .f32) (ky : Vec Ideal S512x512 .bf16) (r : Fin 1024) (o : Fin 512) :
    k1_pay2 (F := Ideal) x ky (ix2 r o) = Spec.scoreOf x ky r o := by
  unfold k1_pay2
  show matmul dot_S1024x512_S512x512_S1024x512_1_1_0_0_n_n none (k1_pay1 (F := Ideal) x)
        (shapeCast S512x512 ky shapeCasts_S512x512_S512x512 : FVec Ideal S512x512 .bf16)
        (constant (F := Ideal) S1024x512 .f32 0x00000000#32) (ix2 r o)
      * Named.named (F := Ideal) κ "fold_c_524288_11863283" (φ := .f32) 0x3D3504F3#32 = _
  rw [prod_at, inv_named]
  rfl

/-- The second body's second store at row r of the block and feature o: the gated, biased output. -/
theorem gated_pay (x : Vec Ideal S1024x512 .f32) (ky mu : Vec Ideal S512x512 .bf16) (g b : Vec Ideal S1x512 .f32)
    (r : Fin 1024) (o : Fin 512) :
    k1_pay3 (F := Ideal) x ky mu g b (ix2 r o) = Spec.gatedOf x ky mu (g (ix2 0 o)) (b (ix2 0 o)) r o := by
  unfold k1_pay3
  show matmul dot_S1024x512_S512x512_S1024x512_1_1_0_0_n_n none (k1_pay1 (F := Ideal) x)
        (shapeCast S512x512 mu shapeCasts_S512x512_S512x512 : FVec Ideal S512x512 .bf16)
        (constant (F := Ideal) S1024x512 .f32 0x00000000#32) (ix2 r o)
      * max (k1_pay2 (F := Ideal) x ky (ix2 r o)
          - broadcastTo S1024x512 (shapeCast S1x512 g shapeCasts_S1x512_S1x512 : FVec Ideal S1x512 .f32)
              broadcasts_S1x512_S1024x512 (ix2 r o))
          (Ideal.ofBits .f32 0x00000000#32)
      + broadcastTo S1024x512 (shapeCast S1x512 b shapeCasts_S1x512_S1x512 : FVec Ideal S1x512 .f32)
          broadcasts_S1x512_S1024x512 (ix2 r o) = _
  rw [prod_at, score_pay, shapeCast_self, shapeCast_self, broadcastTo_1b_ab_apply, broadcastTo_1b_ab_apply,
    Ideal.ofBits_zero_f32]
  rfl

end Cert.KernelIdeal.Payload

end
-- ==== Proof.KernelValue.lean ====
/- The kernel program's two result arrays after the run, as functions of the argument arrays.

   The first launch (no grid) leaves keys = mu · softplus(sigma) and a copy of mu in two whole arrays; two reshapes turn
   gate and bias into 1 × 512 rows; the second launch walks 8 blocks of 1024 rows of x and writes, per block, the scores
   and the gated output. Each output block is the restriction of one whole-array function, and the 8 blocks tile the
   8192 rows, so the arrays end holding those functions. -/
import proofs.«128358_g1073741824313_week1_w2_1031_7_alg».proof.Proof.KernelRun
import proofs.«128358_g1073741824313_week1_w2_1031_7_alg».proof.Proof.Payload
import proofs.«128358_g1073741824313_week1_w2_1031_7_alg».proof.Proof.Spec
import Idealize.ShloMosaic.Lib.Pipeline.Value
import Idealize.ShloMosaic.Lib.ValueLayout

set_option maxRecDepth 16384

noncomputable section

namespace Cert.KernelIdeal.KValue

open Idealize.ShloMosaic Idealize.ShloMosaic.TcCoe Idealize.ShloMosaic.ValueIdx Idealize.SL.Sem
open Cert.KernelIdeal Cert.KernelIdeal.Gen
open Idealize.ShloMosaic.Pipeline (Dat Cfg Window)

/-- Offsets (0, 0), however spelt. -/
theorem hz : (![0, 0] : Fin 2 → Nat) = fun _ => 0 := funext fun a => by fin_cases a <;> rfl

/-! ## The second launch, from the contents its region is entered with -/

section Region1

variable (V : (c : Dev nD) → (b : Ref sig .tc) → Buf (Elt Ideal) ((c : Thread nD τ).loc b))

/-- The printed index maps over the 8 grid points: x and both outputs move one block of rows per point, the weights
    and the two rows stay at block (0, 0). -/
theorem idx1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0
    ∧ win1_6.index t (0 : Fin 2) = t.val ∧ win1_6.index t (1 : Fin 2) = 0 ∧ t.val < 8 :=
  (by decide +kernel : ∀ t : Fin grid1.N, _)

/-- Row r of block t is row 1024·t + r of the array. -/
def rowOf (t : Fin cfg1.N) (r : Fin 1024) : Fin 8192 := ⟨t.val * 1024 + r.val, by
  have := (idx1 t).2.2.2.2.2.2.2.2.2.2.2.2.2.2; have := r.isLt; omega⟩

/-- Where an element of x's block at point t sits in the array. -/
theorem emb_x (t : Fin cfg1.N) (r : Fin 1024) (k : Fin 512) :
    (((cfg1.win 0).blk t).view.emb (ix2 r k) : S8192x512.Idx) = ix2 (rowOf t r) k := by
  obtain ⟨e0, e1, -⟩ := idx1 t
  funext a; apply Fin.ext
  match a with
  | ⟨0, _⟩ => show win1_0.index t (0 : Fin 2) * 1024 + 1 * r.val = t.val * 1024 + r.val; omega
  | ⟨1, _⟩ => show win1_0.index t (1 : Fin 2) * 512 + 1 * k.val = k.val; omega

/-- Where an element of either output's block at point t sits in the array. -/
theorem emb_scores (t : Fin cfg1.N) (r : Fin 1024) (o : Fin 512) :
    (((cfg1.win 5).blk t).view.emb (ix2 r o) : S8192x512.Idx) = ix2 (rowOf t r) o := by
  obtain ⟨-, -, -, -, -, -, -, -, -, -, e0, e1, -⟩ := idx1 t
  funext a; apply Fin.ext
  match a with
  | ⟨0, _⟩ => show win1_5.index t (0 : Fin 2) * 1024 + 1 * r.val = t.val * 1024 + r.val; omega
  | ⟨1, _⟩ => show win1_5.index t (1 : Fin 2) * 512 + 1 * o.val = o.val; omega

theorem emb_gated (t : Fin cfg1.N) (r : Fin 1024) (o : Fin 512) :
    (((cfg1.win 6).blk t).view.emb (ix2 r o) : S8192x512.Idx) = ix2 (rowOf t r) o := by
  obtain ⟨-, -, -, -, -, -, -, -, -, -, -, -, e0, e1, -⟩ := idx1 t
  funext a; apply Fin.ext
  match a with
  | ⟨0, _⟩ => show win1_6.index t (0 : Fin 2) * 1024 + 1 * r.val = t.val * 1024 + r.val; omega
  | ⟨1, _⟩ => show win1_6.index t (1 : Fin 2) * 512 + 1 * o.val = o.val; omega

/-- The weights' blocks are the whole arrays at every point. -/
theorem emb_keys (t : Fin cfg1.N) (o k : Fin 512) :
    (((cfg1.win 1).blk t).view.emb (ix2 o k) : S512x512.Idx) = ix2 o k := by
  obtain ⟨-, -, e0, e1, -⟩ := idx1 t
  funext a; apply Fin.ext
  match a with
  | ⟨0, _⟩ => show win1_1.index t (0 : Fin 2) * 512 + 1 * o.val = o.val; omega
  | ⟨1, _⟩ => show win1_1.index t (1 : Fin 2) * 512 + 1 * k.val = k.val; omega

theorem emb_mu (t : Fin cfg1.N) (o k : Fin 512) :
    (((cfg1.win 2).blk t).view.emb (ix2 o k) : S512x512.Idx) = ix2 o k := by
  obtain ⟨-, -, -, -, e0, e1, -⟩ := idx1 t
  funext a; apply Fin.ext
  match a with
  | ⟨0, _⟩ => show win1_2.index t (0 : Fin 2) * 512 + 1 * o.val = o.val; omega
  | ⟨1, _⟩ => show win1_2.index t (1 : Fin 2) * 512 + 1 * k.val = k.val; omega

/-- So are the gate's and the bias's rows. -/
theorem emb_gate (t : Fin cfg1.N) (z : Fin 1) (o : Fin 512) :
    (((cfg1.win 3).blk t).view.emb (ix2 z o) : S1x512.Idx) = ix2 z o := by
  obtain ⟨-, -, -, -, -, -, e0, e1, -⟩ := idx1 t
  funext a; apply Fin.ext
  match a with
  | ⟨0, _⟩ => show win1_3.index t (0 : Fin 2) * 1 + 1 * z.val = z.val; omega
  | ⟨1, _⟩ => show win1_3.index t (1 : Fin 2) * 512 + 1 * o.val = o.val; omega

theorem emb_bias (t : Fin cfg1.N) (z : Fin 1) (o : Fin 512) :
    (((cfg1.win 4).blk t).view.emb (ix2 z o) : S1x512.Idx) = ix2 z o := by
  obtain ⟨-, -, -, -, -, -, -, -, e0, e1, -⟩ := idx1 t
  funext a; apply Fin.ext
  match a with
  | ⟨0, _⟩ => show win1_4.index t (0 : Fin 2) * 1 + 1 * z.val = z.val; omega
  | ⟨1, _⟩ => show win1_4.index t (1 : Fin 2) * 512 + 1 * o.val = o.val; omega

/-- The input blocks at point t, read at an index, are the arrays the region finds, read where the block sits. -/
theorem xblk_at (c : Dev nD) (t : Fin cfg1.N) (r : Fin 1024) (k : Fin 512) :
    iblk1 V c 0 t (ix2 r k) = V c main_arg0 (ix2 (rowOf t r) k) := by
  show V c main_arg0 (((cfg1.win 0).blk t).view.emb (ix2 r k)) = _
  rw [emb_x]

theorem keysblk_at (c : Dev nD) (t : Fin cfg1.N) (o k : Fin 512) :
    iblk1 V c 1 t (ix2 o k) = V c main_v0_0 (ix2 o k) := by
  show V c main_v0_0 (((cfg1.win 1).blk t).view.emb (ix2 o k)) = _
  rw [emb_keys]

theorem mublk_at (c : Dev nD) (t : Fin cfg1.N) (o k : Fin 512) :
    iblk1 V c 2 t (ix2 o k) = V c main_v0_1 (ix2 o k) := by
  show V c main_v0_1 (((cfg1.win 2).blk t).view.emb (ix2 o k)) = _
  rw [emb_mu]

theorem gateblk_at (c : Dev nD) (t : Fin cfg1.N) (z : Fin 1) (o : Fin 512) :
    iblk1 V c 3 t (ix2 z o) = V c main_v1 (ix2 z o) := by
  show V c main_v1 (((cfg1.win 3).blk t).view.emb (ix2 z o)) = _
  rw [emb_gate]

theorem biasblk_at (c : Dev nD) (t : Fin cfg1.N) (z : Fin 1) (o : Fin 512) :
    iblk1 V c 4 t (ix2 z o) = V c main_v2 (ix2 z o) := by
  show V c main_v2 (((cfg1.win 4).blk t).view.emb (ix2 z o)) = _
  rw [emb_bias]

/-! ### What each point writes back, and the arrays the write-backs add up to -/

/-- The scores as an array over the rows of x, from x and the keys as the region finds them. -/
def scoresArr (X : S8192x512.Idx → EReal) (KY : S512x512.Idx → EReal) : S8192x512.Idx → EReal :=
  fun i => Spec.scoreOf (R := 8192) X KY (i 0) (i 1)

/-- The gated output as an array, from x, the keys, mu and the gate and bias rows as the region finds them. -/
def gatedArr (X : S8192x512.Idx → EReal) (KY MU : S512x512.Idx → EReal) (G B : S1x512.Idx → EReal) : S8192x512.Idx → EReal :=
  fun i => Spec.gatedOf (R := 8192) X KY MU (G (ix2 0 (i 1))) (B (ix2 0 (i 1))) (i 0) (i 1)

/-- Point t writes back block t of the scores array. -/
theorem flushed_scores (c : Dev nD) (t : Fin cfg1.N) :
    (dat1 V c).flushed 5 t = ((cfg1.win 5).blk t).view.read (Elt Ideal) (scoresArr (V c main_arg0) (V c main_v0_0)) := by
  show (cfg1.win 5).cut (grid1.coords t) ((dat1 V c).after 5 t) = _
  rw [after1_5]
  unfold out1_5
  rw [View.canon_unit_zero hz]
  simp only [View.ld_unit_zero (S := S1024x512) hz, View.ld_unit_zero (S := S512x512) hz]
  refine funext fun (j : S1024x512.Idx) => ?_
  obtain ⟨r, o, rfl⟩ : ∃ (r : Fin 1024) (o : Fin 512), j = ix2 r o := ⟨j 0, j 1, eq_ix2 j⟩
  show k1_pay2 (F := Ideal) (iblk1 V c 0 t) (iblk1 V c 1 t) (ix2 r o)
    = scoresArr (V c main_arg0) (V c main_v0_0) (((cfg1.win 5).blk t).view.emb (ix2 r o))
  rw [emb_scores]
  refine (Payload.score_pay (iblk1 V c 0 t) (iblk1 V c 1 t) r o).trans ?_
  show Spec.scoreOf (R := 1024) (iblk1 V c 0 t) (iblk1 V c 1 t) r o
    = Spec.scoreOf (R := 8192) (V c main_arg0) (V c main_v0_0) (rowOf t r) o
  unfold Spec.scoreOf
  simp only [xblk_at, keysblk_at]

/-- Point t writes back block t of the gated output array. -/
theorem flushed_gated (c : Dev nD) (t : Fin cfg1.N) :
    (dat1 V c).flushed 6 t = ((cfg1.win 6).blk t).view.read (Elt Ideal)
      (gatedArr (V c main_arg0) (V c main_v0_0) (V c main_v0_1) (V c main_v1) (V c main_v2)) := by
  show (cfg1.win 6).cut (grid1.coords t) ((dat1 V c).after 6 t) = _
  rw [after1_6]
  unfold out1_6
  rw [View.canon_unit_zero hz]
  simp only [View.ld_unit_zero (S := S1024x512) hz, View.ld_unit_zero (S := S512x512) hz, View.ld_unit_zero (S := S1x512) hz]
  refine funext fun (j : S1024x512.Idx) => ?_
  obtain ⟨r, o, rfl⟩ : ∃ (r : Fin 1024) (o : Fin 512), j = ix2 r o := ⟨j 0, j 1, eq_ix2 j⟩
  show k1_pay3 (F := Ideal) (iblk1 V c 0 t) (iblk1 V c 1 t) (iblk1 V c 2 t) (iblk1 V c 3 t) (iblk1 V c 4 t) (ix2 r o)
    = gatedArr (V c main_arg0) (V c main_v0_0) (V c main_v0_1) (V c main_v1) (V c main_v2) (((cfg1.win 6).blk t).view.emb (ix2 r o))
  rw [emb_gated]
  refine (Payload.gated_pay (iblk1 V c 0 t) (iblk1 V c 1 t) (iblk1 V c 2 t) (iblk1 V c 3 t) (iblk1 V c 4 t) r o).trans ?_
  show Spec.gatedOf (R := 1024) (iblk1 V c 0 t) (iblk1 V c 1 t) (iblk1 V c 2 t) (iblk1 V c 3 t (ix2 0 o)) (iblk1 V c 4 t (ix2 0 o)) r o
    = Spec.gatedOf (R := 8192) (V c main_arg0) (V c main_v0_0) (V c main_v0_1) (V c main_v1 (ix2 0 o)) (V c main_v2 (ix2 0 o)) (rowOf t r) o
  unfold Spec.gatedOf Spec.scoreOf
  simp only [xblk_at, keysblk_at, mublk_at, gateblk_at, biasblk_at]

/-- An index of an output array is in point t's block iff each coordinate is in the block's range on its axis. -/
theorem mem_blk_scores (t : Fin cfg1.N) (i : S8192x512.Idx) :
    i ∈ ((cfg1.win 5).blk t).view.set ↔ ∀ a : Fin 2, win1_5.index t a * S1024x512.size a ≤ (i a).val ∧ (i a).val < win1_5.index t a * S1024x512.size a + S1024x512.size a := by
  show i ∈ ((View.whole main_v3_0).slice (win1_5.rect t)).set ↔ _
  rw [View.set_slice_whole, Rect.mem_set_unit]
  exact Iff.rfl

theorem mem_blk_gated (t : Fin cfg1.N) (i : S8192x512.Idx) :
    i ∈ ((cfg1.win 6).blk t).view.set ↔ ∀ a : Fin 2, win1_6.index t a * S1024x512.size a ≤ (i a).val ∧ (i a).val < win1_6.index t a * S1024x512.size a + S1024x512.size a := by
  show i ∈ ((View.whole main_v3_1).slice (win1_6.rect t)).set ↔ _
  rw [View.set_slice_whole, Rect.mem_set_unit]
  exact Iff.rfl

/-- The point whose block holds row i: i / 1024. -/
def pointOf (i : S8192x512.Idx) : Fin cfg1.N := ⟨(i 0).val / 1024, by
  show (i 0).val / 1024 < grid1.N
  rw [N_1]; have : (i 0).val < 8192 := (i 0).isLt; omega⟩

/-- The 8 blocks of 1024 rows tile the 8192 rows of each output. -/
theorem cover_scores (i : S8192x512.Idx) :
    ∃ t : Fin cfg1.N, (cfg1.win 5).flush t = true ∧ i ∈ ((cfg1.win 5).blk t).view.set := by
  have hi0 : (i 0).val < 8192 := (i 0).isLt
  have hi1 : (i 1).val < 512 := (i 1).isLt
  obtain ⟨-, -, -, -, -, -, -, -, -, -, e0, e1, -⟩ := idx1 (pointOf i)
  have ht : (pointOf i).val = (i 0).val / 1024 := rfl
  refine ⟨pointOf i, flush1_5 _, ?_⟩
  rw [mem_blk_scores]
  intro a
  match a with
  | ⟨0, _⟩ => show win1_5.index (pointOf i) (0 : Fin 2) * 1024 ≤ (i 0).val ∧ (i 0).val < win1_5.index (pointOf i) (0 : Fin 2) * 1024 + 1024; omega
  | ⟨1, _⟩ => show win1_5.index (pointOf i) (1 : Fin 2) * 512 ≤ (i 1).val ∧ (i 1).val < win1_5.index (pointOf i) (1 : Fin 2) * 512 + 512; omega

theorem cover_gated (i : S8192x512.Idx) :
    ∃ t : Fin cfg1.N, (cfg1.win 6).flush t = true ∧ i ∈ ((cfg1.win 6).blk t).view.set := by
  have hi0 : (i 0).val < 8192 := (i 0).isLt
  have hi1 : (i 1).val < 512 := (i 1).isLt
  obtain ⟨-, -, -, -, -, -, -, -, -, -, -, -, e0, e1, -⟩ := idx1 (pointOf i)
  have ht : (pointOf i).val = (i 0).val / 1024 := rfl
  refine ⟨pointOf i, flush1_6 _, ?_⟩
  rw [mem_blk_gated]
  intro a
  match a with
  | ⟨0, _⟩ => show win1_6.index (pointOf i) (0 : Fin 2) * 1024 ≤ (i 0).val ∧ (i 0).val < win1_6.index (pointOf i) (0 : Fin 2) * 1024 + 1024; omega
  | ⟨1, _⟩ => show win1_6.index (pointOf i) (1 : Fin 2) * 512 ≤ (i 1).val ∧ (i 1).val < win1_6.index (pointOf i) (1 : Fin 2) * 512 + 512; omega

/-- After the second launch the scores array holds the scores of what the region found, -/
theorem scores_region (c : Dev nD) :
    (dat1 V c).arrAt 5 cfg1.N = scoresArr (V c main_arg0) (V c main_v0_0) :=
  (dat1 V c).arrAt_eq_of_cover 5 _ (fun t _ => flushed_scores V c t) cover_scores

/-- and the output array the gated output. -/
theorem gated_region (c : Dev nD) :
    (dat1 V c).arrAt 6 cfg1.N = gatedArr (V c main_arg0) (V c main_v0_0) (V c main_v0_1) (V c main_v1) (V c main_v2) :=
  (dat1 V c).arrAt_eq_of_cover 6 _ (fun t _ => flushed_gated V c t) cover_gated

end Region1

/-! ## The first launch, from the contents its region is entered with -/

section Region0

variable (V : (c : Dev nD) → (b : Ref sig .tc) → Buf (Elt Ideal) ((c : Thread nD τ).loc b))

/-- No grid: every window's one block is its whole array, at block (0, 0). -/
theorem idx0 : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0 :=
  (by decide +kernel : ∀ t : Fin grid0.N, _)

theorem emb0_mu (t : Fin cfg0.N) (o k : Fin 512) :
    (((cfg0.win 0).blk t).view.emb (ix2 o k) : S512x512.Idx) = ix2 o k := by
  obtain ⟨e0, e1, -⟩ := idx0 t
  funext a; apply Fin.ext
  match a with
  | ⟨0, _⟩ => show win0_0.index t (0 : Fin 2) * 512 + 1 * o.val = o.val; omega
  | ⟨1, _⟩ => show win0_0.index t (1 : Fin 2) * 512 + 1 * k.val = k.val; omega

theorem emb0_sigma (t : Fin cfg0.N) (o k : Fin 512) :
    (((cfg0.win 1).blk t).view.emb (ix2 o k) : S512x512.Idx) = ix2 o k := by
  obtain ⟨-, -, e0, e1, -⟩ := idx0 t
  funext a; apply Fin.ext
  match a with
  | ⟨0, _⟩ => show win0_1.index t (0 : Fin 2) * 512 + 1 * o.val = o.val; omega
  | ⟨1, _⟩ => show win0_1.index t (1 : Fin 2) * 512 + 1 * k.val = k.val; omega

theorem emb0_keys (t : Fin cfg0.N) (o k : Fin 512) :
    (((cfg0.win 2).blk t).view.emb (ix2 o k) : S512x512.Idx) = ix2 o k := by
  obtain ⟨-, -, -, -, e0, e1, -⟩ := idx0 t
  funext a; apply Fin.ext
  match a with
  | ⟨0, _⟩ => show win0_2.index t (0 : Fin 2) * 512 + 1 * o.val = o.val; omega
  | ⟨1, _⟩ => show win0_2.index t (1 : Fin 2) * 512 + 1 * k.val = k.val; omega

theorem emb0_copy (t : Fin cfg0.N) (o k : Fin 512) :
    (((cfg0.win 3).blk t).view.emb (ix2 o k) : S512x512.Idx) = ix2 o k := by
  obtain ⟨-, -, -, -, -, -, e0, e1⟩ := idx0 t
  funext a; apply Fin.ext
  match a with
  | ⟨0, _⟩ => show win0_3.index t (0 : Fin 2) * 512 + 1 * o.val = o.val; omega
  | ⟨1, _⟩ => show win0_3.index t (1 : Fin 2) * 512 + 1 * k.val = k.val; omega

theorem mublk0_at (c : Dev nD) (t : Fin cfg0.N) (o k : Fin 512) :
    iblk0 V c 0 t (ix2 o k) = V c main_arg1 (ix2 o k) := by
  show V c main_arg1 (((cfg0.win 0).blk t).view.emb (ix2 o k)) = _
  rw [emb0_mu]

theorem sigmablk0_at (c : Dev nD) (t : Fin cfg0.N) (o k : Fin 512) :
    iblk0 V c 1 t (ix2 o k) = V c main_arg2 (ix2 o k) := by
  show V c main_arg2 (((cfg0.win 1).blk t).view.emb (ix2 o k)) = _
  rw [emb0_sigma]

/-- The one point writes back the keys of mu and sigma as the region finds them, -/
theorem flushed_keys (c : Dev nD) (t : Fin cfg0.N) :
    (dat0 V c).flushed 2 t = ((cfg0.win 2).blk t).view.read (Elt Ideal) (Spec.keys (V c main_arg1) (V c main_arg2)) := by
  show (cfg0.win 2).cut (grid0.coords t) ((dat0 V c).after 2 t) = _
  rw [after0_2]
  unfold out0_2
  rw [View.canon_unit_zero hz]
  simp only [View.ld_unit_zero (S := S512x512) hz]
  refine funext fun (j : S512x512.Idx) => ?_
  obtain ⟨o, k, rfl⟩ : ∃ (o k : Fin 512), j = ix2 o k := ⟨j 0, j 1, eq_ix2 j⟩
  show k0_pay1 (F := Ideal) (iblk0 V c 0 t) (iblk0 V c 1 t) (ix2 o k)
    = Spec.keys (V c main_arg1) (V c main_arg2) (((cfg0.win 2).blk t).view.emb (ix2 o k))
  rw [emb0_keys]
  refine (congrFun (Payload.keys_pay (iblk0 V c 0 t) (iblk0 V c 1 t)) (ix2 o k)).trans ?_
  show Spec.keys (iblk0 V c 0 t) (iblk0 V c 1 t) (ix2 o k) = Spec.keys (V c main_arg1) (V c main_arg2) (ix2 o k)
  unfold Spec.keys
  simp only [mublk0_at, sigmablk0_at]

/-- and mu itself. -/
theorem flushed_copy (c : Dev nD) (t : Fin cfg0.N) :
    (dat0 V c).flushed 3 t = ((cfg0.win 3).blk t).view.read (Elt Ideal) (V c main_arg1) := by
  show (cfg0.win 3).cut (grid0.coords t) ((dat0 V c).after 3 t) = _
  rw [after0_3]
  unfold out0_3
  rw [View.canon_unit_zero hz]
  simp only [View.ld_unit_zero (S := S512x512) hz]
  refine funext fun (j : S512x512.Idx) => ?_
  obtain ⟨o, k, rfl⟩ : ∃ (o k : Fin 512), j = ix2 o k := ⟨j 0, j 1, eq_ix2 j⟩
  show k0_pay2 (F := Ideal) (iblk0 V c 0 t) (ix2 o k) = V c main_arg1 (((cfg0.win 3).blk t).view.emb (ix2 o k))
  rw [emb0_copy]
  refine (congrFun (Payload.mu_pay (iblk0 V c 0 t)) (ix2 o k)).trans ?_
  exact mublk0_at V c t o k

theorem mem_blk_keys (t : Fin cfg0.N) (i : S512x512.Idx) :
    i ∈ ((cfg0.win 2).blk t).view.set ↔ ∀ a : Fin 2, win0_2.index t a * S512x512.size a ≤ (i a).val ∧ (i a).val < win0_2.index t a * S512x512.size a + S512x512.size a := by
  show i ∈ ((View.whole main_v0_0).slice (win0_2.rect t)).set ↔ _
  rw [View.set_slice_whole, Rect.mem_set_unit]
  exact Iff.rfl

theorem mem_blk_copy (t : Fin cfg0.N) (i : S512x512.Idx) :
    i ∈ ((cfg0.win 3).blk t).view.set ↔ ∀ a : Fin 2, win0_3.index t a * S512x512.size a ≤ (i a).val ∧ (i a).val < win0_3.index t a * S512x512.size a + S512x512.size a := by
  show i ∈ ((View.whole main_v0_1).slice (win0_3.rect t)).set ↔ _
  rw [View.set_slice_whole, Rect.mem_set_unit]
  exact Iff.rfl

/-- The one block is the whole array. -/
theorem cover_keys (i : S512x512.Idx) :
    ∃ t : Fin cfg0.N, (cfg0.win 2).flush t = true ∧ i ∈ ((cfg0.win 2).blk t).view.set := by
  have hi0 : (i 0).val < 512 := (i 0).isLt
  have hi1 : (i 1).val < 512 := (i 1).isLt
  obtain ⟨-, -, -, -, e0, e1, -⟩ := idx0 t0_0
  refine ⟨t0_0, flush0_2 _, ?_⟩
  rw [mem_blk_keys]
  intro a
  match a with
  | ⟨0, _⟩ => show win0_2.index t0_0 (0 : Fin 2) * 512 ≤ (i 0).val ∧ (i 0).val < win0_2.index t0_0 (0 : Fin 2) * 512 + 512; omega
  | ⟨1, _⟩ => show win0_2.index t0_0 (1 : Fin 2) * 512 ≤ (i 1).val ∧ (i 1).val < win0_2.index t0_0 (1 : Fin 2) * 512 + 512; omega

theorem cover_copy (i : S512x512.Idx) :
    ∃ t : Fin cfg0.N, (cfg0.win 3).flush t = true ∧ i ∈ ((cfg0.win 3).blk t).view.set := by
  have hi0 : (i 0).val < 512 := (i 0).isLt
  have hi1 : (i 1).val < 512 := (i 1).isLt
  obtain ⟨-, -, -, -, -, -, e0, e1⟩ := idx0 t0_0
  refine ⟨t0_0, flush0_3 _, ?_⟩
  rw [mem_blk_copy]
  intro a
  match a with
  | ⟨0, _⟩ => show win0_3.index t0_0 (0 : Fin 2) * 512 ≤ (i 0).val ∧ (i 0).val < win0_3.index t0_0 (0 : Fin 2) * 512 + 512; omega
  | ⟨1, _⟩ => show win0_3.index t0_0 (1 : Fin 2) * 512 ≤ (i 1).val ∧ (i 1).val < win0_3.index t0_0 (1 : Fin 2) * 512 + 512; omega

/-- After the first launch the keys array holds mu · softplus(sigma), -/
theorem keys_region (c : Dev nD) :
    (dat0 V c).arrAt 2 cfg0.N = Spec.keys (V c main_arg1) (V c main_arg2) :=
  (dat0 V c).arrAt_eq_of_cover 2 _ (fun t _ => flushed_keys V c t) cover_keys

/-- and the copy array mu. -/
theorem copy_region (c : Dev nD) :
    (dat0 V c).arrAt 3 cfg0.N = V c main_arg1 :=
  (dat0 V c).arrAt_eq_of_cover 3 _ (fun t _ => flushed_copy V c t) cover_copy

end Region0

/-! ## The contents the second launch is entered with, and the two result arrays -/

section Fold

variable (m : (ℓ : Loc nD τ sig) → Buf (Elt Ideal) ℓ) (ρ : Dev nD → PrngReg)

/-- x is untouched before the second launch. -/
theorem entry_x (c : Dev nD) : V2 m ρ c main_arg0 = m ((c.tc : Thread nD τ).loc main_arg0) :=
  (((W3_arr m ρ c 0).trans (((dat1 (V2 m ρ) c).arrAt_in 0 rfl _).trans (A_eq1 (V2 m ρ) c 0))).symm).trans (W3_main_arg0 m ρ c)

/-- The two reshapes between the launches write neither output of the first launch, so the second launch finds the
    keys of the launch-time mu and sigma, -/
theorem entry_keys (c : Dev nD) :
    V2 m ρ c main_v0_0 = Spec.keys (m ((c.tc : Thread nD τ).loc main_arg1)) (m ((c.tc : Thread nD τ).loc main_arg2)) :=
  calc W2 m ρ c (Proc.devRef .tc main_v0_0)
    _ = W1 m ρ c (Proc.devRef .tc main_v0_0) := StableHlo.after_of_forall_not_mem (b := Proc.devRef .tc main_v0_0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = (dat0 (V0 m ρ) c).arrAt 2 cfg0.N := W1_arr m ρ c 2
    _ = Spec.keys (V0 m ρ c main_arg1) (V0 m ρ c main_arg2) := keys_region (V0 m ρ) c
    _ = _ := rfl

/-- and the launch-time mu. -/
theorem entry_mu (c : Dev nD) : V2 m ρ c main_v0_1 = m ((c.tc : Thread nD τ).loc main_arg1) :=
  calc W2 m ρ c (Proc.devRef .tc main_v0_1)
    _ = W1 m ρ c (Proc.devRef .tc main_v0_1) := StableHlo.after_of_forall_not_mem (b := Proc.devRef .tc main_v0_1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = (dat0 (V0 m ρ) c).arrAt 3 cfg0.N := W1_arr m ρ c 3
    _ = V0 m ρ c main_arg1 := copy_region (V0 m ρ) c
    _ = _ := rfl

/-- The gate's row: the launch-time gate, a unit axis added in front. -/
theorem entry_gate (c : Dev nD) (z : Fin 1) (o : Fin 512) :
    V2 m ρ c main_v1 (ix2 z o) = m ((c.tc : Thread nD τ).loc main_arg3) (ix1 o) := by
  have e : (V2 m ρ c main_v1 : S1x512.Idx → EReal)
      = shapeCast S1x512 (W1 m ρ c (Proc.devRef .tc main_arg3) : S512.Idx → EReal) shapeCasts_S512_S1x512 := by
    show StableHlo.after hostOps1 (W1 m ρ c) (Proc.devRef .tc main_v1) = _
    after_results
    rfl
  rw [e, shapeCast_a_1a_apply]
  show W1 m ρ c (Proc.devRef .tc main_arg3) (ix1 o) = _
  rw [W1_of_ne m ρ c main_arg3 (by decide)]

/-- The bias's row, likewise. -/
theorem entry_bias (c : Dev nD) (z : Fin 1) (o : Fin 512) :
    V2 m ρ c main_v2 (ix2 z o) = m ((c.tc : Thread nD τ).loc main_arg4) (ix1 o) := by
  have e : (V2 m ρ c main_v2 : S1x512.Idx → EReal)
      = shapeCast S1x512 (W1 m ρ c (Proc.devRef .tc main_arg4) : S512.Idx → EReal) shapeCasts_S512_S1x512 := by
    show StableHlo.after hostOps1 (W1 m ρ c) (Proc.devRef .tc main_v2) = _
    after_results
    rfl
  rw [e, shapeCast_a_1a_apply]
  show W1 m ρ c (Proc.devRef .tc main_arg4) (ix1 o) = _
  rw [W1_of_ne m ρ c main_arg4 (by decide)]

/-- The scores array after the run. -/
theorem scores_final (c : Dev nD) :
    W3 m ρ c (Proc.devRef .tc main_v3_0)
      = Spec.scores (m ((c.tc : Thread nD τ).loc main_arg0)) (m ((c.tc : Thread nD τ).loc main_arg1)) (m ((c.tc : Thread nD τ).loc main_arg2)) :=
  calc W3 m ρ c (Proc.devRef .tc main_v3_0)
    _ = (dat1 (V2 m ρ) c).arrAt 5 cfg1.N := W3_arr m ρ c 5
    _ = scoresArr (V2 m ρ c main_arg0) (V2 m ρ c main_v0_0) := scores_region (V2 m ρ) c
    _ = _ := by rw [entry_x, entry_keys]; rfl

/-- The gated output array after the run. -/
theorem masked_final (c : Dev nD) :
    W3 m ρ c (Proc.devRef .tc main_v3_1)
      = Spec.masked (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) :=
  calc W3 m ρ c (Proc.devRef .tc main_v3_1)
    _ = (dat1 (V2 m ρ) c).arrAt 6 cfg1.N := W3_arr m ρ c 6
    _ = gatedArr (V2 m ρ c main_arg0) (V2 m ρ c main_v0_0) (V2 m ρ c main_v0_1) (V2 m ρ c main_v1) (V2 m ρ c main_v2) :=
        gated_region (V2 m ρ) c
    _ = _ := by
        rw [entry_x, entry_keys, entry_mu]
        funext i
        obtain ⟨r, o, rfl⟩ : ∃ (r : Fin 8192) (o : Fin 512), i = ix2 r o := ⟨i 0, i 1, eq_ix2 i⟩
        show Spec.gatedOf (R := 8192) _ _ _ (V2 m ρ c main_v1 (ix2 0 o)) (V2 m ρ c main_v2 (ix2 0 o)) r o
          = Spec.gatedOf (R := 8192) _ _ _ (m ((c.tc : Thread nD τ).loc main_arg3) (ix1 o)) (m ((c.tc : Thread nD τ).loc main_arg4) (ix1 o)) r o
        rw [entry_gate, entry_bias]

/-- The kernel program's run with both results named as the specification's functions of the arguments. -/
theorem run : θ_run defs (onTc (τ := τ) (main (F := Ideal))) ⟨m, fun _ => 0, ρ⟩ (fun r => ∀ c : Dev nD,
      r.2.mem ((c.tc : Thread nD τ).loc main_v3_1)
        = Spec.masked (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4))
      ∧ r.2.mem ((c.tc : Thread nD τ).loc main_v3_0)
        = Spec.scores (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h c).1.trans (masked_final m ρ c), (h c).2.1.trans (scores_final m ρ c), (h c).2.2⟩)
    (run_named (F := Ideal) m ρ)

end Fold

end Cert.KernelIdeal.KValue

end
-- ==== Proof.RefValue.lean ====
/- The reference's two results, read index by index, are the specification's scores and gated output. -/
import proofs.«128358_g1073741824313_week1_w2_1031_7_alg».proof.Proof.Gen.ReferenceIdeal.Read
import proofs.«128358_g1073741824313_week1_w2_1031_7_alg».proof.Proof.Spec

noncomputable section

namespace Cert.ReferenceIdeal.RefValue

open Idealize.ShloMosaic Idealize.ShloMosaic.ValueIdx Cert.ReferenceIdeal Cert.ReferenceIdeal.Gen Cert.ReferenceIdeal.Read
open scoped BigOperators

/-- The divisor's single-precision word: sign 0, exponent 131, fraction 3474675, that is
    (2^23 + 3474675) · 2^(131 - 127 - 23) = 11863283 / 524288. -/
private theorem ofBits_D : Ideal.ofBits .f32 0x41B504F3#32 = ((11863283 / 524288 : ℝ) : EReal) := by
  simp [Ideal.ofBits, Ideal.ieee, -EReal.coe_mul]; norm_num

/-- "Not equal" of a value with itself is the bit 0. -/
private theorem cmp_une_self (d : EReal) : Ideal.cmp .une d d = 0#1 := by
  simp [Ideal.cmp]

/-- The keys stage: mu times the softplus of sigma, elementwise. The softplus guard compares a value with
    itself, so the stable branch is the one selected. -/
private theorem keys_ref (x1 x2 : (⟨S512x512, .f32⟩ : BufTy).Contents (Elt Ideal)) :
    val_main_v1 (F := Ideal) x1 x2 = Spec.keys x1 x2 := by
  funext i
  simp only [val_main_v1_apply, val_main_v0_apply, val_main_call0_v4_apply, val_main_call0_v6_apply,
    val_main_call0_v11_apply, val_main_call0_v10_apply, val_main_call0_v9_apply, val_main_call0_v8_apply,
    val_main_call0_v7_apply, val_main_call0_v3_apply, val_main_call0_v1_apply, val_main_call0_v0_apply,
    val_main_call0_v2_apply, val_main_call0_v5_apply, val_main_call0_cst_apply,
    Ideal.ofBits_def, Ideal.ofBits_zero_f32, Ideal.cmpf_def, cmp_une_self, select_zero,
    Ideal.mulf_def, Ideal.addf_def, Ideal.subf_def, Ideal.maximumf_def, Ideal.hostUnary_exp_def,
    Ideal.hostUnary_log1p_def, Ideal.hostNegf_def, Ideal.negf_def, Ideal.hostAbsf_def, Ideal.absf_def,
    Spec.sub_zero']
  rfl

/-- One score of the reference: the contraction of x's row r with the keys' row o, divided by D, which is the
    product with D's exact reciprocal. -/
private theorem scores_at (x0 : (⟨S8192x512, .f32⟩ : BufTy).Contents (Elt Ideal))
    (x1 x2 : (⟨S512x512, .f32⟩ : BufTy).Contents (Elt Ideal)) (r : Fin 8192) (o : Fin 512) :
    val_main_v5 (F := Ideal) x0 x1 x2 (ix2 r o) = Spec.scoreOf x0 (Spec.keys x1 x2) r o := by
  have hl : ∀ k : Fin 512, lidx_main_v3 (ix2 r o) k = ix2 r k := fun k =>
    funext fun a => Fin.ext (by match a with | ⟨0, _⟩ => rfl | ⟨1, _⟩ => rfl)
  have hr : ∀ k : Fin 512, idx_main_v2 (ridx_main_v3 (ix2 r o) k) = ix2 o k := fun k =>
    funext fun a => Fin.ext (by match a with | ⟨0, _⟩ => rfl | ⟨1, _⟩ => rfl)
  have hD : ((1 / (11863283 / 524288) : ℝ)) = (524288 / 11863283 : ℝ) := by norm_num
  simp only [val_main_v5_apply, val_main_v3_apply, val_main_v2_apply, val_main_v4_apply, val_main_cst_apply,
    hl, hr, keys_ref, Ideal.ofBits_def, ofBits_D, Ideal.hostDivf_def]
  rw [Ideal.div_coe (by norm_num), hD]
  rfl

/-- The reference's scores: the product of x with the transposed keys, divided by D. -/
theorem scores_ref (x0 : (⟨S8192x512, .f32⟩ : BufTy).Contents (Elt Ideal)) (x1 x2 : (⟨S512x512, .f32⟩ : BufTy).Contents (Elt Ideal)) :
    val_main_v5 (F := Ideal) x0 x1 x2 = Spec.scores x0 x1 x2 := by
  funext i
  obtain ⟨r, o, rfl⟩ : ∃ (r : Fin 8192) (o : Fin 512), i = ix2 r o := ⟨i 0, i 1, eq_ix2 i⟩
  exact scores_at x0 x1 x2 r o

/-- The reference's gated output. -/
theorem masked_ref (x0 : (⟨S8192x512, .f32⟩ : BufTy).Contents (Elt Ideal)) (x1 x2 : (⟨S512x512, .f32⟩ : BufTy).Contents (Elt Ideal))
    (x3 x4 : (⟨S512, .f32⟩ : BufTy).Contents (Elt Ideal)) :
    val_main_v15 (F := Ideal) x0 x1 x2 x3 x4 = Spec.masked x0 x1 x2 x3 x4 := by
  funext i
  obtain ⟨r, o, rfl⟩ : ∃ (r : Fin 8192) (o : Fin 512), i = ix2 r o := ⟨i 0, i 1, eq_ix2 i⟩
  have hl : ∀ k : Fin 512, lidx_main_v11 (ix2 r o) k = ix2 r k := fun k =>
    funext fun a => Fin.ext (by match a with | ⟨0, _⟩ => rfl | ⟨1, _⟩ => rfl)
  have hr : ∀ k : Fin 512, idx_main_v10 (ridx_main_v11 (ix2 r o) k) = ix2 o k := fun k =>
    funext fun a => Fin.ext (by match a with | ⟨0, _⟩ => rfl | ⟨1, _⟩ => rfl)
  have hg : idx_main_v6 (idx_main_v7 (ix2 r o)) = ix1 o :=
    funext fun a => Fin.ext (by match a with | ⟨0, _⟩ => rfl)
  have hb : idx_main_v13 (idx_main_v14 (ix2 r o)) = ix1 o :=
    funext fun a => Fin.ext (by match a with | ⟨0, _⟩ => rfl)
  simp only [val_main_v15_apply, val_main_v12_apply, val_main_v11_apply, val_main_v10_apply, val_main_v9_apply,
    val_main_v8_apply, val_main_v7_apply, val_main_v6_apply, val_main_v14_apply, val_main_v13_apply,
    val_main_call1_v0_apply, val_main_call1_cst_apply, scores_at, hl, hr, hg, hb,
    Ideal.ofBits_def, Ideal.ofBits_zero_f32, Ideal.addf_def, Ideal.mulf_def, Ideal.subf_def, Ideal.maximumf_def]
  rfl

end Cert.ReferenceIdeal.RefValue

end
-- ==== Proof.lean ====
/- The proof of `Cert.Claim`: the kernel program (two launches: keys = mu · softplus(sigma), then per block of 1024
   rows of x the scores and the gated output) against the reference (the same quantities by whole-array host
   operations).

   Both idealized programs end with scores[r, o] = (Σ_k x[r, k] · mu[o, k] · softplus(sigma[o, k])) · (1/D) and
   masked[r, o] = (Σ_k x[r, k] · mu[o, k]) · max(scores[r, o] − gate[o], 0) + bias[o] on the extended reals:
   the kernel multiplies by the constant named 1/D where the reference divides by D (division by a nonzero real is
   the product with its reciprocal, at the infinities too), each kernel matrix product contracts x's columns against
   the weights' columns where the reference contracts against the transposed weights' rows, and the softplus is the
   same expression on both sides. No law used needs finiteness, so the precondition is never opened. -/
import proofs.«128358_g1073741824313_week1_w2_1031_7_alg».proof.Defs
import proofs.«128358_g1073741824313_week1_w2_1031_7_alg».proof.Proof.Gen.Kernel
import proofs.«128358_g1073741824313_week1_w2_1031_7_alg».proof.Proof.Gen.Kernel.Skeleton
import proofs.«128358_g1073741824313_week1_w2_1031_7_alg».proof.Proof.Gen.Kernel.Launch
import proofs.«128358_g1073741824313_week1_w2_1031_7_alg».proof.Proof.Gen.Kernel.Points
import proofs.«128358_g1073741824313_week1_w2_1031_7_alg».proof.Proof.Gen.Kernel.Frame
import proofs.«128358_g1073741824313_week1_w2_1031_7_alg».proof.Proof.Gen.KernelIdeal
import proofs.«128358_g1073741824313_week1_w2_1031_7_alg».proof.Proof.Gen.KernelIdeal.Skeleton
import proofs.«128358_g1073741824313_week1_w2_1031_7_alg».proof.Proof.Gen.KernelIdeal.Launch
import proofs.«128358_g1073741824313_week1_w2_1031_7_alg».proof.Proof.Gen.KernelIdeal.Points
import proofs.«128358_g1073741824313_week1_w2_1031_7_alg».proof.Proof.Gen.KernelIdeal.Frame
import proofs.«128358_g1073741824313_week1_w2_1031_7_alg».proof.Proof.Gen.ReferenceIdeal
import proofs.«128358_g1073741824313_week1_w2_1031_7_alg».proof.Proof.Gen.Pre_finite_inputs
import proofs.«128358_g1073741824313_week1_w2_1031_7_alg».proof.Proof.Gen.ReferenceIdeal.Run
import proofs.«128358_g1073741824313_week1_w2_1031_7_alg».proof.Proof.Gen.ReferenceIdeal.Read
import proofs.«128358_g1073741824313_week1_w2_1031_7_alg».proof.Proof.KernelValue
import proofs.«128358_g1073741824313_week1_w2_1031_7_alg».proof.Proof.RefValue
import Idealize.ShloMosaic.Adequacy
import Idealize.ShloMosaic.Init

noncomputable section

namespace Cert.Proof

open Idealize.ShloMosaic Idealize.SL.Sem

/-- The word-level kernel program runs and keeps its arguments. -/
theorem frame_k : Cert.frame_Kernel := fun m ρ _ => Cert.Kernel.Gen.frame m ρ

/-- So does the idealized kernel program. -/
theorem frame_ki : Cert.frame_KernelIdeal := fun m ρ _ => Cert.KernelIdeal.Gen.frame m ρ

/-- The reference runs and keeps its arguments: its run with the results dropped. -/
theorem frame_ri : Cert.frame_ReferenceIdeal := fun m ρ _ =>
  (θ_run Cert.ReferenceIdeal.defs _ _).mono (fun _ h c => (h c).2.2.2) (Cert.ReferenceIdeal.Value.run (F := Ideal) m ρ)

/-- The one named constant: the table gives it the value 524288/11863283 = 1/D, and that is what the printed constant
    denotes on the extended reals. -/
theorem preserves : Cert.preserves_Kernel_KernelIdeal :=
  IdealRules.named_const.statement Cert.KernelIdeal.κ "fold_c_524288_11863283" .f32 0x3D3504F3#32 ((524288 / 11863283 : ℝ) : EReal) rfl

/-- Both programs end at the specification's two arrays of the (agreeing) arguments. -/
theorem algebraic : Cert.algebraic_KernelIdeal_ReferenceIdeal := by
  intro m ρ m' ρ' _ hagree
  refine ⟨fun c => Spec.masked (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)),
    fun c => Spec.scores (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)),
    fun c => Spec.masked (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)), ?_, ?_⟩
  · exact (θ_run Cert.KernelIdeal.defs _ _).mono (fun r h c => ⟨(h c).1, (h c).2.1, (h c).1, (h c).2.2⟩)
      (Cert.KernelIdeal.KValue.run m ρ)
  · refine (θ_run Cert.ReferenceIdeal.defs _ _).mono (fun r h c => ⟨?_, ?_, ?_, (h c).2.2.2⟩)
      (Cert.ReferenceIdeal.Value.run (F := Ideal) m' ρ')
    · rw [(h c).1, Cert.ReferenceIdeal.Read.val_main_v15_eq, Cert.ReferenceIdeal.RefValue.masked_ref,
        (hagree c).1, (hagree c).2.1, (hagree c).2.2.1, (hagree c).2.2.2.1, (hagree c).2.2.2.2]
    · rw [(h c).2.1, Cert.ReferenceIdeal.Read.val_main_v5_eq, Cert.ReferenceIdeal.RefValue.scores_ref,
        (hagree c).1, (hagree c).2.1, (hagree c).2.2.1]
    · rw [(h c).2.2.1, Cert.ReferenceIdeal.Read.val_main_v15_eq, Cert.ReferenceIdeal.RefValue.masked_ref,
        (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
